-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x64 .f32) (main_arg12 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : FVec F S800000x64 .f32) (main_arg3 : FVec F S1x64 .f32) (main_arg4 : IVec S50000 32) (main_arg5 : FVec F S128x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S16000x64 : Shape := ⟨2, ![16000, 64]⟩
abbrev S50000x1 : Shape := ⟨2, ![50000, 1]⟩
abbrev S5000x64 : Shape := ⟨2, ![5000, 64]⟩

abbrev nBuf : Space → Nat
  | .hbm => 52
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S1x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S1x64, .f32⟩
  | .hbm, ⟨51, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S16000x64, .f32⟩
  | .local _ .vmem, ⟨10, _⟩ => ⟨S16000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x64_S64x64_0_0 : S128x64.Slices ![0, 0] S64x64
  slices_S128x64_S64x64_64_0 : S128x64.Slices ![64, 0] S64x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S16000x64_S64x64_S16000x64_1_0_0_1_n_n_wf : DotDims.WF S16000x64 S64x64 S16000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .f32 = 32 ∨ (Rect.block (s := S800000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x64.size a ≤ S800000x64.size a
  hwx0_7 : ∀ i : grid0.Coords, EltTy.bits .f32 = 32 ∨ (Rect.block (s := S800000x64) S16000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S16000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x128 : Shape := ⟨2, ![50000, 128]⟩

abbrev nBuf : Space → Nat
  | .hbm => 66
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x128, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S_, .f32⟩
  | .hbm, ⟨43, _⟩ => ⟨S800000, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S50000x128, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Mlp.lean ====
/-
  One row through a two-layer perceptron, on the extended reals, and the whole-array function built from it.

  A row is a pair of 64-vectors `a`, `b` (a node's features beside an edge's, or a node's beside its aggregated
  messages). The first layer multiplies the concatenated row `[a | b]` by a 128 × 64 weight matrix, adds a bias and clamps
  below at zero; the second multiplies by a 64 × 64 matrix and adds a bias. With the weight matrix given as its upper and
  lower halves `top`, `bot`, hidden unit `k` is
      max (∑ i, a i * top i k + ∑ i, b i * bot i k + β₁ k) 0
  and output `j` is `∑ k, hidden k * W₂ k j + β₂ j`.

  The one law used: a sum over the 128 columns of the concatenated row is the sum over the first 64 plus the sum over the
  last 64 (`Fin.sum_univ_add`) — addition on the extended reals is a commutative monoid, so no finiteness is needed.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The zero the clamp compares against: the f32 word `0x00000000`, never evaluated (both programs carry this word). -/
abbrev zeroWord : EReal := Ideal.ofBits .f32 0x00000000#32

/-- Hidden unit `k` of a row `[a | b]`: the first layer's affine map, clamped below at zero. -/
def hidden (a b : Fin 64 → EReal) (top bot : Fin 64 → Fin 64 → EReal) (β₁ : Fin 64 → EReal) (k : Fin 64) : EReal :=
  max ((∑ i : Fin 64, a i * top i k) + (∑ i : Fin 64, b i * bot i k) + β₁ k) zeroWord

/-- Output `j` of the row: the second layer's affine map of the hidden units. -/
def row (a b : Fin 64 → EReal) (top bot : Fin 64 → Fin 64 → EReal) (β₁ : Fin 64 → EReal)
    (W₂ : Fin 64 → Fin 64 → EReal) (β₂ : Fin 64 → EReal) (j : Fin 64) : EReal :=
  (∑ k : Fin 64, hidden a b top bot β₁ k * W₂ k j) + β₂ j

/-- The perceptron applied to every row of two `n × 64` arrays: entry `(r, j)` is output `j` of row `r`.
    The weight halves are `64 × 64` arrays and the biases `1 × 64` arrays (the form the kernel is handed them in). -/
def rows {n : Nat} (A B : (⟨2, ![n, 64]⟩ : Shape).Idx → EReal)
    (top bot : (⟨2, ![64, 64]⟩ : Shape).Idx → EReal) (β₁ : (⟨2, ![1, 64]⟩ : Shape).Idx → EReal)
    (W₂ : (⟨2, ![64, 64]⟩ : Shape).Idx → EReal) (β₂ : (⟨2, ![1, 64]⟩ : Shape).Idx → EReal) :
    (⟨2, ![n, 64]⟩ : Shape).Idx → EReal :=
  fun i => row (fun k => A (ix2 (i 0) k)) (fun k => B (ix2 (i 0) k)) (fun r k => top (ix2 r k)) (fun r k => bot (ix2 r k))
    (fun k => β₁ (ix2 0 k)) (fun r k => W₂ (ix2 r k)) (fun k => β₂ (ix2 0 k)) (i 1)

/-- Two rows with equal features, weights and biases have equal outputs. -/
theorem row_congr {a a' b b' : Fin 64 → EReal} {top top' bot bot' : Fin 64 → Fin 64 → EReal} {β₁ β₁' : Fin 64 → EReal}
    {W₂ W₂' : Fin 64 → Fin 64 → EReal} {β₂ β₂' : Fin 64 → EReal} (ha : a = a') (hb : b = b') (ht : top = top')
    (hbt : bot = bot') (h1 : β₁ = β₁') (hW : W₂ = W₂') (h2 : β₂ = β₂') (j : Fin 64) :
    row a b top bot β₁ W₂ β₂ j = row a' b' top' bot' β₁' W₂' β₂' j := by
  subst ha hb ht hbt h1 hW h2; rfl

/-- The upper half of a 128 × 64 weight matrix, as a 64 × 64 array: rows 0 … 63. -/
def upper (W : (⟨2, ![128, 64]⟩ : Shape).Idx → EReal) : (⟨2, ![64, 64]⟩ : Shape).Idx → EReal :=
  fun i => W (ix2 (Fin.castAdd 64 (show Fin 64 from i 0)) (i 1))

/-- The lower half: rows 64 … 127. -/
def lower (W : (⟨2, ![128, 64]⟩ : Shape).Idx → EReal) : (⟨2, ![64, 64]⟩ : Shape).Idx → EReal :=
  fun i => W (ix2 (Fin.natAdd 64 (show Fin 64 from i 0)) (i 1))

/-- A bias vector laid out as the one row of a 1 × 64 array. -/
def asRow (β : (⟨1, ![64]⟩ : Shape).Idx → EReal) : (⟨2, ![1, 64]⟩ : Shape).Idx → EReal :=
  fun i => β (ix1 (i 1))

/-- A sum over the 128 columns of a concatenated row splits into the sums over its two halves. -/
theorem sum_halves (f : Fin 128 → EReal) :
    ∑ k : Fin 128, f k = (∑ i : Fin 64, f (Fin.castAdd 64 i)) + ∑ i : Fin 64, f (Fin.natAdd 64 i) :=
  Fin.sum_univ_add (a := 64) (b := 64) f

end Cert.Mlp

end
-- ==== Proof.EdgeBody.lean ====
/-
  The body of the perceptron kernel over blocks of 16000 rows, read at an index.

  The body loads a 16000 × 64 block `x0` of the first feature array and the matching block `x1` of the second, the two
  64 × 64 halves `x2`, `x3` of the first layer's weights, its bias row `x4`, the second layer's weights `x5` and bias row
  `x6`, and stores
      (max (x0 · x2 + x1 · x3 + x4) 0) · x5 + x6
  (the three products accumulated into zero, the changes of float format the identity on the extended reals). At entry
  `(p, q)` that is output `q` of the two-layer perceptron applied to row `p` of `[x0 | x1]`: `Mlp.row`.
-/
import proofs.«120374_j24773371363899_1_alg».proof.Proof.Gen.KernelIdeal.Skeleton
import proofs.«120374_j24773371363899_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Cert.KernelIdeal Cert.KernelIdeal.Gen Idealize.ShloMosaic Idealize.ShloMosaic.ValueIdx

/-! ## The product's operand indices: at output `(r, c)` and contraction coordinate `k` the left operand is read at `(r, k)`
    and the right at `(k, c)` -/

theorem lhs_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- A block product accumulated into zero, at `(p, q)`: the sum over the 64 contracted columns. -/
theorem prod_apply {φ₁ φ₂ : FTy} (L : FVec Ideal S16000x64 φ₁) (R : FVec Ideal S64x64 φ₂) (p : Fin 16000) (q : Fin 64) :
    matmul dot_S16000x64_S64x64_S16000x64_1_0_0_1_n_n none L R (constant S16000x64 .f32 0x00000000#32) (ix2 p q)
      = ∑ k : Fin 64, L (ix2 p k) * R (ix2 k q) := by
  simp only [matmul]
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact lhs_0 _ _
    | ⟨1, _⟩ => exact (lhs_1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The stored value at `(p, q)` is output `q` of the perceptron on row `p` of the two loaded blocks. -/
theorem pay_apply (x0 x1 : Vec Ideal S16000x64 .f32) (x2 x3 : Vec Ideal S64x64 .f32) (x4 : Vec Ideal S1x64 .f32)
    (x5 : Vec Ideal S64x64 .f32) (x6 : Vec Ideal S1x64 .f32) (p : Fin 16000) (q : Fin 64) :
    k0_pay1 (F := Ideal) x0 x1 x2 x3 x4 x5 x6 (ix2 p q)
      = Mlp.row (fun k => x0 (ix2 p k)) (fun k => x1 (ix2 p k)) (fun r k => x2 (ix2 r k)) (fun r k => x3 (ix2 r k))
          (fun k => x4 (ix2 0 k)) (fun r k => x5 (ix2 r k)) (fun k => x6 (ix2 0 k)) q := by
  unfold k0_pay1 Mlp.row Mlp.hidden
  simp only [addf_apply, prod_apply, truncf_apply, maximumf_apply, broadcast_apply, shapeCast_self,
    broadcastTo_1b_ab_apply]
  rfl

end Cert.KernelIdeal.EdgeBody

end
-- ==== Proof.EdgeRegion.lean ====
/-
  The result array of the perceptron region over blocks of 16000 rows.

  The grid has 50 points; point `t` is handed rows `16000·t … 16000·t + 15999` of the two feature arrays, the whole of each
  weight half and bias row, and writes the same rows of the result. So what point `t` writes back is block `t` of ONE
  function of the arrays as the region finds them: the perceptron applied row by row (`Mlp.rows`). The 50 blocks tile the
  800000 rows (row `r` lies in block `r / 16000`), so after the region the result array IS that function.
-/
import proofs.«120374_j24773371363899_1_alg».proof.Proof.Gen.KernelIdeal.Frame
import proofs.«120374_j24773371363899_1_alg».proof.Proof.EdgeBody
import Idealize.ShloMosaic.Lib.Pipeline.Value

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it is entered with. -/
abbrev result (c : Dev nD) : S800000x64.Idx → EReal :=
  Mlp.rows (V c main_v10) (V c main_arg2) (V c main_v11) (V c main_v12) (V c main_v13) (V c main_arg7) (V c main_v14)

/-- The printed index maps over the 50 points of the grid: the three row-blocked windows sit at block `(t, 0)`, the resident ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of block `t` is row `16000·t + p` of the array. -/
def rowOf (t : Fin cfg0.N) (p : Fin 16000) : Fin 800000 :=
  ⟨t.val * 16000 + p.val, by have ht : t.val < 50 := t.isLt; have hp := p.isLt; omega⟩

/-! ## Each window's block, read where it lies in its array -/

theorem blk0 (c : Dev nD) (t : Fin cfg0.N) (p : Fin 16000) (k : Fin 64) :
    (iblk0 V c 0 t : Vec Ideal S16000x64 .f32) (ix2 p k) = (V c main_v10 : S800000x64.Idx → EReal) (ix2 (rowOf t p) k) := by
  obtain ⟨e0, e1, -⟩ := idx_facts t
  unfold iblk0
  rw [View.read_apply]
  show V c main_v10 _ = V c main_v10 _
  congr 1
  funext a
  apply Fin.ext
  match a with
  | ⟨0, _⟩ => show win0_0.index t 0 * 16000 + 1 * p.val = t.val * 16000 + p.val; rw [e0]; omega
  | ⟨1, _⟩ => show win0_0.index t 1 * 64 + 1 * k.val = k.val; rw [e1]; omega

theorem blk1 (c : Dev nD) (t : Fin cfg0.N) (p : Fin 16000) (k : Fin 64) :
    (iblk0 V c 1 t : Vec Ideal S16000x64 .f32) (ix2 p k) = (V c main_arg2 : S800000x64.Idx → EReal) (ix2 (rowOf t p) k) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 16000 + 1 * p.val = t.val * 16000 + p.val; rw [e0]; omega
  | ⟨1, _⟩ => show win0_1.index t 1 * 64 + 1 * k.val = k.val; rw [e1]; omega

theorem blk2 (c : Dev nD) (t : Fin cfg0.N) (r k : Fin 64) :
    (iblk0 V c 2 t : Vec Ideal S64x64 .f32) (ix2 r k) = (V c main_v11 : S64x64.Idx → EReal) (ix2 r k) := by
  obtain ⟨-, -, -, -, e0, e1, -⟩ := idx_facts t
  unfold iblk0
  rw [View.read_apply]
  show V c main_v11 _ = V c main_v11 _
  congr 1
  funext a
  apply Fin.ext
  match a with
  | ⟨0, _⟩ => show win0_2.index t 0 * 64 + 1 * r.val = r.val; rw [e0]; omega
  | ⟨1, _⟩ => show win0_2.index t 1 * 64 + 1 * k.val = k.val; rw [e1]; omega

theorem blk3 (c : Dev nD) (t : Fin cfg0.N) (r k : Fin 64) :
    (iblk0 V c 3 t : Vec Ideal S64x64 .f32) (ix2 r k) = (V c main_v12 : S64x64.Idx → EReal) (ix2 r k) := by
  obtain ⟨-, -, -, -, -, -, e0, e1, -⟩ := idx_facts t
  unfold iblk0
  rw [View.read_apply]
  show V c main_v12 _ = V c main_v12 _
  congr 1
  funext a
  apply Fin.ext
  match a with
  | ⟨0, _⟩ => show win0_3.index t 0 * 64 + 1 * r.val = r.val; rw [e0]; omega
  | ⟨1, _⟩ => show win0_3.index t 1 * 64 + 1 * k.val = k.val; rw [e1]; omega

theorem blk4 (c : Dev nD) (t : Fin cfg0.N) (k : Fin 64) :
    (iblk0 V c 4 t : Vec Ideal S1x64 .f32) (ix2 0 k) = (V c main_v13 : S1x64.Idx → EReal) (ix2 0 k) := by
  obtain ⟨-, -, -, -, -, -, -, -, e0, e1, -⟩ := idx_facts t
  unfold iblk0
  rw [View.read_apply]
  show V c main_v13 _ = V c main_v13 _
  congr 1
  funext a
  apply Fin.ext
  match a with
  | ⟨0, _⟩ => show win0_4.index t 0 * 1 + 1 * 0 = 0; rw [e0]
  | ⟨1, _⟩ => show win0_4.index t 1 * 64 + 1 * k.val = k.val; rw [e1]; omega

theorem blk5 (c : Dev nD) (t : Fin cfg0.N) (r k : Fin 64) :
    (iblk0 V c 5 t : Vec Ideal S64x64 .f32) (ix2 r k) = (V c main_arg7 : S64x64.Idx → EReal) (ix2 r k) := by
  obtain ⟨-, -, -, -, -, -, -, -, -, -, e0, e1, -⟩ := idx_facts t
  unfold iblk0
  rw [View.read_apply]
  show V c main_arg7 _ = V c main_arg7 _
  congr 1
  funext a
  apply Fin.ext
  match a with
  | ⟨0, _⟩ => show win0_5.index t 0 * 64 + 1 * r.val = r.val; rw [e0]; omega
  | ⟨1, _⟩ => show win0_5.index t 1 * 64 + 1 * k.val = k.val; rw [e1]; omega

theorem blk6 (c : Dev nD) (t : Fin cfg0.N) (k : Fin 64) :
    (iblk0 V c 6 t : Vec Ideal S1x64 .f32) (ix2 0 k) = (V c main_v14 : S1x64.Idx → EReal) (ix2 0 k) := by
  obtain ⟨-, -, -, -, -, -, -, -, -, -, -, -, e0, e1, -⟩ := idx_facts t
  unfold iblk0
  rw [View.read_apply]
  show V c main_v14 _ = V c main_v14 _
  congr 1
  funext a
  apply Fin.ext
  match a with
  | ⟨0, _⟩ => show win0_6.index t 0 * 1 + 1 * 0 = 0; rw [e0]
  | ⟨1, _⟩ => show win0_6.index t 1 * 64 + 1 * k.val = k.val; rw [e1]; omega

/-- Entry `(p, q)` of the result window's block `t` lies at `(16000·t + p, q)` of the result array. -/
theorem emb7 (t : Fin cfg0.N) (p : Fin 16000) (q : Fin 64) :
    (((cfg0.win 7).blk t).view.emb (ix2 p q) : S800000x64.Idx) = ix2 (rowOf t p) q := by
  obtain ⟨-, -, -, -, -, -, -, -, -, -, -, -, -, -, e0, e1⟩ := idx_facts t
  funext a
  apply Fin.ext
  match a with
  | ⟨0, _⟩ => show win0_7.index t 0 * 16000 + 1 * p.val = t.val * 16000 + p.val; rw [e0]; omega
  | ⟨1, _⟩ => show win0_7.index t 1 * 64 + 1 * q.val = q.val; rw [e1]; omega

/-! ## What a point writes back, and the array after the region -/

/-- WHAT POINT `t` WRITES BACK is block `t` of `result`. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz]
  simp only [View.ld_unit_zero (S := S16000x64) hz, View.ld_unit_zero (S := S64x64) hz, View.ld_unit_zero (S := S1x64) hz]
  funext j
  obtain ⟨p, q, rfl⟩ : ∃ (p : Fin 16000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = result V c (((cfg0.win 7).blk t).view.emb (ix2 p q))
  rw [emb7 t p q]
  refine (EdgeBody.pay_apply _ _ _ _ _ _ _ p q).trans ?_
  exact Mlp.row_congr (funext fun k => blk0 V c t p k) (funext fun k => blk1 V c t p k)
    (funext fun r => funext fun k => blk2 V c t r k) (funext fun r => funext fun k => blk3 V c t r k)
    (funext fun k => blk4 V c t k) (funext fun r => funext fun k => blk5 V c t r k) (funext fun k => blk6 V c t k) q

/-- An index of the array is in point `t`'s block iff each coordinate is in the block's range on its axis. -/
theorem mem_blk (t : Fin cfg0.N) (i : S800000x64.Idx) :
    i ∈ ((cfg0.win 7).blk t).view.set ↔ ∀ a : Fin 2, win0_7.index t a * S16000x64.size a ≤ (i a).val ∧ (i a).val < win0_7.index t a * S16000x64.size a + S16000x64.size a := by
  show i ∈ ((View.whole main_v15).slice (win0_7.rect t)).set ↔ _
  rw [View.set_slice_whole, Rect.mem_set_unit]
  exact Iff.rfl

/-- Every row of the array lies in some point's block: row `r` in block `r / 16000`. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  let t : Fin cfg0.N := ⟨(i 0).val / 16000, by show (i 0).val / 16000 < 50; omega⟩
  obtain ⟨-, -, -, -, -, -, -, -, -, -, -, -, -, -, e0, e1⟩ := idx_facts t
  have ht : t.val = (i 0).val / 16000 := rfl
  refine ⟨t, flush0_7 t, ?_⟩
  rw [mem_blk]
  intro a
  match a with
  | ⟨0, _⟩ => show win0_7.index t (0 : Fin 2) * 16000 ≤ (i 0).val ∧ (i 0).val < win0_7.index t (0 : Fin 2) * 16000 + 16000; rw [e0, ht]; omega
  | ⟨1, _⟩ => show win0_7.index t (1 : Fin 2) * 64 ≤ (i 1).val ∧ (i 1).val < win0_7.index t (1 : Fin 2) * 64 + 64; rw [e1]; omega

/-- THE ARRAY after the region: the perceptron of the arrays the region was entered with, row by row. -/
theorem final (c : Dev nD) : (dat0 V c).arrAt 7 cfg0.N = result V c :=
  (dat0 V c).arrAt_eq_of_cover 7 (result V c) (fun t _ => flushed_eq V c t) cover

end Cert.KernelIdeal.EdgeRegion

end
-- ==== Proof.NodeBody.lean ====
/-
  The body of the perceptron kernel over blocks of 5000 rows, read at an index.

  The body loads a 5000 × 64 block `x0` of the first feature array and the matching block `x1` of the second, the two
  64 × 64 halves `x2`, `x3` of the first layer's weights, its bias row `x4`, the second layer's weights `x5` and bias row
  `x6`, and stores
      (max (x0 · x2 + x1 · x3 + x4) 0) · x5 + x6
  (the three products accumulated into zero, the changes of float format the identity on the extended reals). At entry
  `(p, q)` that is output `q` of the two-layer perceptron applied to row `p` of `[x0 | x1]`: `Mlp.row`.
-/
import proofs.«120374_j24773371363899_1_alg».proof.Proof.Gen.KernelIdeal.Skeleton
import proofs.«120374_j24773371363899_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Cert.KernelIdeal Cert.KernelIdeal.Gen Idealize.ShloMosaic Idealize.ShloMosaic.ValueIdx

/-! ## The product's operand indices: at output `(r, c)` and contraction coordinate `k` the left operand is read at `(r, k)`
    and the right at `(k, c)` -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product accumulated into zero, at `(p, q)`: the sum over the 64 contracted columns. -/
theorem prod_apply {φ₁ φ₂ : FTy} (L : FVec Ideal S5000x64 φ₁) (R : FVec Ideal S64x64 φ₂) (p : Fin 5000) (q : Fin 64) :
    matmul dot_S5000x64_S64x64_S5000x64_1_0_0_1_n_n none L R (constant S5000x64 .f32 0x00000000#32) (ix2 p q)
      = ∑ k : Fin 64, L (ix2 p k) * R (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The stored value at `(p, q)` is output `q` of the perceptron on row `p` of the two loaded blocks. -/
theorem pay_apply (x0 x1 : Vec Ideal S5000x64 .f32) (x2 x3 : Vec Ideal S64x64 .f32) (x4 : Vec Ideal S1x64 .f32)
    (x5 : Vec Ideal S64x64 .f32) (x6 : Vec Ideal S1x64 .f32) (p : Fin 5000) (q : Fin 64) :
    k1_pay1 (F := Ideal) x0 x1 x2 x3 x4 x5 x6 (ix2 p q)
      = Mlp.row (fun k => x0 (ix2 p k)) (fun k => x1 (ix2 p k)) (fun r k => x2 (ix2 r k)) (fun r k => x3 (ix2 r k))
          (fun k => x4 (ix2 0 k)) (fun r k => x5 (ix2 r k)) (fun k => x6 (ix2 0 k)) q := by
  unfold k1_pay1 Mlp.row Mlp.hidden
  simp only [addf_apply, prod_apply, truncf_apply, maximumf_apply, broadcast_apply, shapeCast_self,
    broadcastTo_1b_ab_apply]
  rfl

end Cert.KernelIdeal.NodeBody

end
-- ==== Proof.NodeRegion.lean ====
/-
  The result array of the perceptron region over blocks of 5000 rows.

  The grid has 10 points; point `t` is handed rows `5000·t … 5000·t + 4999` of the two feature arrays, the whole of each
  weight half and bias row, and writes the same rows of the result. So what point `t` writes back is block `t` of ONE
  function of the arrays as the region finds them: the perceptron applied row by row (`Mlp.rows`). The 10 blocks tile the
  50000 rows (row `r` lies in block `r / 5000`), so after the region the result array IS that function.
-/
import proofs.«120374_j24773371363899_1_alg».proof.Proof.Gen.KernelIdeal.Frame
import proofs.«120374_j24773371363899_1_alg».proof.Proof.NodeBody
import Idealize.ShloMosaic.Lib.Pipeline.Value

set_option maxRecDepth 16384

noncomputable section

namespace Cert.KernelIdeal.NodeRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it is entered with. -/
abbrev result (c : Dev nD) : S50000x64.Idx → EReal :=
  Mlp.rows (V c main_arg0) (V c main_v27) (V c main_v28) (V c main_v29) (V c main_v30) (V c main_arg11) (V c main_v31)

/-- The printed index maps over the 10 points of the grid: the three row-blocked windows sit at block `(t, 0)`, the resident ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of block `t` is row `5000·t + p` of the array. -/
def rowOf (t : Fin cfg1.N) (p : Fin 5000) : Fin 50000 :=
  ⟨t.val * 5000 + p.val, by have ht : t.val < 10 := t.isLt; have hp := p.isLt; omega⟩

/-! ## Each window's block, read where it lies in its array -/

theorem blk0 (c : Dev nD) (t : Fin cfg1.N) (p : Fin 5000) (k : Fin 64) :
    (iblk1 V c 0 t : Vec Ideal S5000x64 .f32) (ix2 p k) = (V c main_arg0 : S50000x64.Idx → EReal) (ix2 (rowOf t p) k) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * p.val = t.val * 5000 + p.val; rw [e0]; omega
  | ⟨1, _⟩ => show win1_0.index t 1 * 64 + 1 * k.val = k.val; rw [e1]; omega

theorem blk1 (c : Dev nD) (t : Fin cfg1.N) (p : Fin 5000) (k : Fin 64) :
    (iblk1 V c 1 t : Vec Ideal S5000x64 .f32) (ix2 p k) = (V c main_v27 : S50000x64.Idx → EReal) (ix2 (rowOf t p) k) := by
  obtain ⟨-, -, e0, e1, -⟩ := idx_facts t
  unfold iblk1
  rw [View.read_apply]
  show V c main_v27 _ = V c main_v27 _
  congr 1
  funext a
  apply Fin.ext
  match a with
  | ⟨0, _⟩ => show win1_1.index t 0 * 5000 + 1 * p.val = t.val * 5000 + p.val; rw [e0]; omega
  | ⟨1, _⟩ => show win1_1.index t 1 * 64 + 1 * k.val = k.val; rw [e1]; omega

theorem blk2 (c : Dev nD) (t : Fin cfg1.N) (r k : Fin 64) :
    (iblk1 V c 2 t : Vec Ideal S64x64 .f32) (ix2 r k) = (V c main_v28 : S64x64.Idx → EReal) (ix2 r k) := by
  obtain ⟨-, -, -, -, e0, e1, -⟩ := idx_facts t
  unfold iblk1
  rw [View.read_apply]
  show V c main_v28 _ = V c main_v28 _
  congr 1
  funext a
  apply Fin.ext
  match a with
  | ⟨0, _⟩ => show win1_2.index t 0 * 64 + 1 * r.val = r.val; rw [e0]; omega
  | ⟨1, _⟩ => show win1_2.index t 1 * 64 + 1 * k.val = k.val; rw [e1]; omega

theorem blk3 (c : Dev nD) (t : Fin cfg1.N) (r k : Fin 64) :
    (iblk1 V c 3 t : Vec Ideal S64x64 .f32) (ix2 r k) = (V c main_v29 : S64x64.Idx → EReal) (ix2 r k) := by
  obtain ⟨-, -, -, -, -, -, e0, e1, -⟩ := idx_facts t
  unfold iblk1
  rw [View.read_apply]
  show V c main_v29 _ = V c main_v29 _
  congr 1
  funext a
  apply Fin.ext
  match a with
  | ⟨0, _⟩ => show win1_3.index t 0 * 64 + 1 * r.val = r.val; rw [e0]; omega
  | ⟨1, _⟩ => show win1_3.index t 1 * 64 + 1 * k.val = k.val; rw [e1]; omega

theorem blk4 (c : Dev nD) (t : Fin cfg1.N) (k : Fin 64) :
    (iblk1 V c 4 t : Vec Ideal S1x64 .f32) (ix2 0 k) = (V c main_v30 : S1x64.Idx → EReal) (ix2 0 k) := by
  obtain ⟨-, -, -, -, -, -, -, -, e0, e1, -⟩ := idx_facts t
  unfold iblk1
  rw [View.read_apply]
  show V c main_v30 _ = V c main_v30 _
  congr 1
  funext a
  apply Fin.ext
  match a with
  | ⟨0, _⟩ => show win1_4.index t 0 * 1 + 1 * 0 = 0; rw [e0]
  | ⟨1, _⟩ => show win1_4.index t 1 * 64 + 1 * k.val = k.val; rw [e1]; omega

theorem blk5 (c : Dev nD) (t : Fin cfg1.N) (r k : Fin 64) :
    (iblk1 V c 5 t : Vec Ideal S64x64 .f32) (ix2 r k) = (V c main_arg11 : S64x64.Idx → EReal) (ix2 r k) := by
  obtain ⟨-, -, -, -, -, -, -, -, -, -, e0, e1, -⟩ := idx_facts t
  unfold iblk1
  rw [View.read_apply]
  show V c main_arg11 _ = V c main_arg11 _
  congr 1
  funext a
  apply Fin.ext
  match a with
  | ⟨0, _⟩ => show win1_5.index t 0 * 64 + 1 * r.val = r.val; rw [e0]; omega
  | ⟨1, _⟩ => show win1_5.index t 1 * 64 + 1 * k.val = k.val; rw [e1]; omega

theorem blk6 (c : Dev nD) (t : Fin cfg1.N) (k : Fin 64) :
    (iblk1 V c 6 t : Vec Ideal S1x64 .f32) (ix2 0 k) = (V c main_v31 : S1x64.Idx → EReal) (ix2 0 k) := by
  obtain ⟨-, -, -, -, -, -, -, -, -, -, -, -, e0, e1, -⟩ := idx_facts t
  unfold iblk1
  rw [View.read_apply]
  show V c main_v31 _ = V c main_v31 _
  congr 1
  funext a
  apply Fin.ext
  match a with
  | ⟨0, _⟩ => show win1_6.index t 0 * 1 + 1 * 0 = 0; rw [e0]
  | ⟨1, _⟩ => show win1_6.index t 1 * 64 + 1 * k.val = k.val; rw [e1]; omega

/-- Entry `(p, q)` of the result window's block `t` lies at `(5000·t + p, q)` of the result array. -/
theorem emb7 (t : Fin cfg1.N) (p : Fin 5000) (q : Fin 64) :
    (((cfg1.win 7).blk t).view.emb (ix2 p q) : S50000x64.Idx) = ix2 (rowOf t p) q := by
  obtain ⟨-, -, -, -, -, -, -, -, -, -, -, -, -, -, e0, e1⟩ := idx_facts t
  funext a
  apply Fin.ext
  match a with
  | ⟨0, _⟩ => show win1_7.index t 0 * 5000 + 1 * p.val = t.val * 5000 + p.val; rw [e0]; omega
  | ⟨1, _⟩ => show win1_7.index t 1 * 64 + 1 * q.val = q.val; rw [e1]; omega

/-! ## What a point writes back, and the array after the region -/

/-- WHAT POINT `t` WRITES BACK is block `t` of `result`. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = result V c (((cfg1.win 7).blk t).view.emb (ix2 p q))
  rw [emb7 t p q]
  refine (NodeBody.pay_apply _ _ _ _ _ _ _ p q).trans ?_
  exact Mlp.row_congr (funext fun k => blk0 V c t p k) (funext fun k => blk1 V c t p k)
    (funext fun r => funext fun k => blk2 V c t r k) (funext fun r => funext fun k => blk3 V c t r k)
    (funext fun k => blk4 V c t k) (funext fun r => funext fun k => blk5 V c t r k) (funext fun k => blk6 V c t k) q

/-- An index of the array is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v32).slice (win1_7.rect t)).set ↔ _
  rw [View.set_slice_whole, Rect.mem_set_unit]
  exact Iff.rfl

/-- Every row of the array lies in some point's block: row `r` in block `r / 5000`. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  let t : Fin cfg1.N := ⟨(i 0).val / 5000, by show (i 0).val / 5000 < 10; omega⟩
  obtain ⟨-, -, -, -, -, -, -, -, -, -, -, -, -, -, e0, e1⟩ := idx_facts t
  have ht : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 64 ≤ (i 1).val ∧ (i 1).val < win1_7.index t (1 : Fin 2) * 64 + 64; rw [e1]; omega

/-- THE ARRAY after the region: the perceptron of the arrays the region was entered with, row by row. -/
theorem final (c : Dev nD) : (dat1 V c).arrAt 7 cfg1.N = result V c :=
  (dat1 V c).arrAt_eq_of_cover 7 (result V c) (fun t _ => flushed_eq V c t) cover

end Cert.KernelIdeal.NodeRegion

end
-- ==== Proof.KernelValue.lean ====
/-
  The kernel program's result as one function of its arguments.

  @main gathers a source node's features for every edge, runs the edge region (the perceptron on each gathered row beside
  the edge's own features), scatter-adds the per-edge results into their destination nodes and divides by the clamped
  in-degree, then runs the node region (the perceptron on each node's features beside its aggregated messages). Reading
  the buffer contents at each boundary back through the host operations (`after_results`) and through the two regions'
  result arrays (`EdgeRegion.final`, `NodeRegion.final`) gives the result buffer as `whole` of the thirteen arguments.
-/
import proofs.«120374_j24773371363899_1_alg».proof.Proof.Gen.KernelIdeal.Frame
import proofs.«120374_j24773371363899_1_alg».proof.Proof.EdgeRegion
import proofs.«120374_j24773371363899_1_alg».proof.Proof.NodeRegion
import Idealize.ShloMosaic.Lib.StableHlo.Run
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-! ## The host operations around the regions, as functions -/

section Host
variable {F : FTy → Type} [FloatOps F]

/-- Row `a` of the 2 × 800000 edge list, as a vector of 800000 node numbers. -/
def edgeRow0 (E : (⟨S2x800000, .i32⟩ : BufTy).Contents (Elt F)) : (⟨S800000, .i32⟩ : BufTy).Contents (Elt F) :=
  shapeCast S800000 (extractStridedSlice S1x800000 ![0, 0] E slices_S2x800000_S1x800000_0_0) shapeCasts_S1x800000_S800000
def edgeRow1 (E : (⟨S2x800000, .i32⟩ : BufTy).Contents (Elt F)) : (⟨S800000, .i32⟩ : BufTy).Contents (Elt F) :=
  shapeCast S800000 (extractStridedSlice S1x800000 ![1, 0] E slices_S2x800000_S1x800000_1_0) shapeCasts_S1x800000_S800000

/-- Every edge's source node's feature row: the gather of `X` at the edge list's first row (a negative number wrapped by 50000). -/
def gathered (X : (⟨S50000x64, .f32⟩ : BufTy).Contents (Elt F)) (E : (⟨S2x800000, .i32⟩ : BufTy).Contents (Elt F)) : (⟨S800000x64, .f32⟩ : BufTy).Contents (Elt F) :=
  Host.gather gather_S50000x64_S800000x1_S800000x64_1_0_n_n_0_1_164 X
    (broadcastInDim S800000x1 ![0] bcast_S800000_S800000x1_0
      (select (cmpi .slt (edgeRow0 E) (broadcastInDim S800000 ![] bcast_S_S800000 (constantI S_ 32 0#32)))
        (addi (edgeRow0 E) (broadcastInDim S800000 ![] bcast_S_S800000 (constantI S_ 32 50000#32))) (edgeRow0 E)))

/-- The mean of the per-edge rows `H` over each destination node: their scatter-added sum divided by the node's in-degree
    clamped below at one. -/
def aggregate (E : (⟨S2x800000, .i32⟩ : BufTy).Contents (Elt F)) (H : (⟨S800000x64, .f32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 (edgeRow1 E)) H)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (edgeRow1 E))
            (broadcastInDim S800000 ![] bcast_S_S800000 (constant S_ .f32 0x3F800000#32)))
          (broadcastInDim S50000 ![] bcast_S_S50000 (constant S_ .f32 0x3F800000#32)))))

end Host

/-- THE RESULT as one function of the arguments: the node perceptron over each node's features beside the mean, over its
    incoming edges, of the edge perceptron over the source node's features beside the edge's. -/
def whole (x0 : (⟨S50000x64, .f32⟩ : BufTy).Contents (Elt Ideal)) (x1 : (⟨S2x800000, .i32⟩ : BufTy).Contents (Elt Ideal)) (x2 : (⟨S800000x64, .f32⟩ : BufTy).Contents (Elt Ideal))
    (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    S50000x64.Idx → EReal :=
  Mlp.rows x0
    (aggregate (F := Ideal) x1
      (Mlp.rows (gathered (F := Ideal) x0 x1) x2 (Mlp.upper x5) (Mlp.lower x5) (Mlp.asRow x6) x7 (Mlp.asRow x8)))
    (Mlp.upper x9) (Mlp.lower x9) (Mlp.asRow x10) x11 (Mlp.asRow x12)

/-! ## The weight halves and bias rows the host hands the regions -/

theorem slice_upper (W : (⟨S128x64, .f32⟩ : BufTy).Contents (Elt Ideal)) :
    extractStridedSlice S64x64 ![0, 0] W slices_S128x64_S64x64_0_0 = Mlp.upper W := by
  funext j
  exact extractStridedSlice_apply ![0, 0] W slices_S128x64_S64x64_0_0 j _ (fun a => match a with
    | ⟨0, _⟩ => by show (j 0).val = 0 + (j 0).val; omega
    | ⟨1, _⟩ => by show (j 1).val = 0 + (j 1).val; omega)

theorem slice_lower (W : (⟨S128x64, .f32⟩ : BufTy).Contents (Elt Ideal)) :
    extractStridedSlice S64x64 ![64, 0] W slices_S128x64_S64x64_64_0 = Mlp.lower W := by
  funext j
  exact extractStridedSlice_apply ![64, 0] W slices_S128x64_S64x64_64_0 j _ (fun a => match a with
    | ⟨0, _⟩ => by show 64 + (j 0).val = 64 + (j 0).val; rfl
    | ⟨1, _⟩ => by show (j 1).val = 0 + (j 1).val; omega)

theorem reshape_row (β : (⟨S64, .f32⟩ : BufTy).Contents (Elt Ideal)) :
    shapeCast S1x64 β shapeCasts_S64_S1x64 = Mlp.asRow β := by
  funext j
  obtain ⟨u, k, rfl⟩ : ∃ (u : Fin 1) (k : Fin 64), j = ix2 u k := ⟨j 0, j 1, eq_ix2 j⟩
  exact shapeCast_a_1a_apply β shapeCasts_S64_S1x64 u k

/-! ## The buffer contents at the boundaries, read back to the arguments -/

variable (m : (ℓ : Loc nD τ sig) → Buf (Elt Ideal) ℓ) (ρ : Dev nD → PrngReg)

/-- Argument `b`'s contents at launch, on core `c`. -/
abbrev arg (c : Dev nD) (b : Ref sig .tc) : Buf (Elt Ideal) ((c.tc : Thread nD τ).loc b) := m ((c.tc : Thread nD τ).loc b)

section Stretch0
/-! After the first host stretch (the edge region's entry). -/
theorem W1_v10 (c : Dev nD) : W1 m ρ c (Proc.devRef .tc main_v10) = gathered (F := Ideal) (arg m c main_arg0) (arg m c main_arg1) := by
  show StableHlo.after hostOps0 (W0 m ρ c) (Proc.devRef .tc main_v10) = _
  after_results <;> try rfl
theorem W1_v3 (c : Dev nD) : W1 m ρ c (Proc.devRef .tc main_v3) = edgeRow1 (F := Ideal) (arg m c main_arg1) := by
  show StableHlo.after hostOps0 (W0 m ρ c) (Proc.devRef .tc main_v3) = _
  after_results <;> try rfl
theorem W1_v11 (c : Dev nD) : W1 m ρ c (Proc.devRef .tc main_v11) = Mlp.upper (arg m c main_arg5) := by
  rw [← slice_upper]
  show StableHlo.after hostOps0 (W0 m ρ c) (Proc.devRef .tc main_v11) = _
  after_results <;> try rfl
theorem W1_v12 (c : Dev nD) : W1 m ρ c (Proc.devRef .tc main_v12) = Mlp.lower (arg m c main_arg5) := by
  rw [← slice_lower]
  show StableHlo.after hostOps0 (W0 m ρ c) (Proc.devRef .tc main_v12) = _
  after_results <;> try rfl
theorem W1_v13 (c : Dev nD) : W1 m ρ c (Proc.devRef .tc main_v13) = Mlp.asRow (arg m c main_arg6) := by
  rw [← reshape_row]
  show StableHlo.after hostOps0 (W0 m ρ c) (Proc.devRef .tc main_v13) = _
  after_results <;> try rfl
theorem W1_v14 (c : Dev nD) : W1 m ρ c (Proc.devRef .tc main_v14) = Mlp.asRow (arg m c main_arg8) := by
  rw [← reshape_row]
  show StableHlo.after hostOps0 (W0 m ρ c) (Proc.devRef .tc main_v14) = _
  after_results <;> try rfl
/-- An argument no operation of the first stretch writes is as launched. -/
theorem W1_arg (c : Dev nD) (b : Ref sig .tc) (hb : b = main_arg0 ∨ b = main_arg2 ∨ b = main_arg7 ∨ b = main_arg9 ∨ b = main_arg10 ∨ b = main_arg11 ∨ b = main_arg12) :
    W1 m ρ c (Proc.devRef .tc b) = arg m c b := by
  rcases hb with rfl | rfl | rfl | rfl | rfl | rfl | rfl <;>
    (show StableHlo.after hostOps0 (W0 m ρ c) (Proc.devRef .tc _) = _; after_results <;> try rfl)
end Stretch0

/-- AFTER THE EDGE REGION its result buffer holds the edge perceptron over the gathered rows beside the edge features. -/
theorem W2_v15 (c : Dev nD) : W2 m ρ c (Proc.devRef .tc main_v15)
    = Mlp.rows (gathered (F := Ideal) (arg m c main_arg0) (arg m c main_arg1)) (arg m c main_arg2) (Mlp.upper (arg m c main_arg5))
        (Mlp.lower (arg m c main_arg5)) (Mlp.asRow (arg m c main_arg6)) (arg m c main_arg7) (Mlp.asRow (arg m c main_arg8)) := by
  refine (W2_arr m ρ c 7).trans ((EdgeRegion.final (V1 m ρ) c).trans ?_)
  show Mlp.rows (W1 m ρ c (Proc.devRef .tc main_v10)) (W1 m ρ c (Proc.devRef .tc main_arg2)) (W1 m ρ c (Proc.devRef .tc main_v11))
    (W1 m ρ c (Proc.devRef .tc main_v12)) (W1 m ρ c (Proc.devRef .tc main_v13)) (W1 m ρ c (Proc.devRef .tc main_arg7))
    (W1 m ρ c (Proc.devRef .tc main_v14)) = _
  rw [W1_v10, W1_v11, W1_v12, W1_v13, W1_v14, W1_arg m ρ c main_arg2 (by simp), W1_arg m ρ c main_arg7 (by simp)]

section Stretch1
/-! After the second host stretch (the node region's entry). -/
theorem W3_v27 (c : Dev nD) : W3 m ρ c (Proc.devRef .tc main_v27)
    = aggregate (F := Ideal) (arg m c main_arg1) (Mlp.rows (gathered (F := Ideal) (arg m c main_arg0) (arg m c main_arg1)) (arg m c main_arg2)
        (Mlp.upper (arg m c main_arg5)) (Mlp.lower (arg m c main_arg5)) (Mlp.asRow (arg m c main_arg6)) (arg m c main_arg7) (Mlp.asRow (arg m c main_arg8))) := by
  rw [← W2_v15 m ρ c]
  unfold aggregate
  rw [← W1_v3 m ρ c, ← W2_of_ne m ρ c main_v3 (by decide)]
  show StableHlo.after hostOps1 (W2 m ρ c) (Proc.devRef .tc main_v27) = _
  after_results <;> try rfl
theorem W3_arg (c : Dev nD) (b : Ref sig .tc) (hb : b = main_arg0 ∨ b = main_arg11) :
    W3 m ρ c (Proc.devRef .tc b) = arg m c b := by
  rcases hb with rfl | rfl
  · rw [← W1_arg m ρ c main_arg0 (by simp), ← W2_of_ne m ρ c main_arg0 (by decide)]
    show StableHlo.after hostOps1 (W2 m ρ c) (Proc.devRef .tc main_arg0) = _
    after_results
  · rw [← W1_arg m ρ c main_arg11 (by simp), ← W2_of_ne m ρ c main_arg11 (by decide)]
    show StableHlo.after hostOps1 (W2 m ρ c) (Proc.devRef .tc main_arg11) = _
    after_results
theorem W3_v28 (c : Dev nD) : W3 m ρ c (Proc.devRef .tc main_v28) = Mlp.upper (arg m c main_arg9) := by
  rw [← slice_upper, ← W1_arg m ρ c main_arg9 (by simp), ← W2_of_ne m ρ c main_arg9 (by decide)]
  show StableHlo.after hostOps1 (W2 m ρ c) (Proc.devRef .tc main_v28) = _
  after_results <;> try rfl
theorem W3_v29 (c : Dev nD) : W3 m ρ c (Proc.devRef .tc main_v29) = Mlp.lower (arg m c main_arg9) := by
  rw [← slice_lower, ← W1_arg m ρ c main_arg9 (by simp), ← W2_of_ne m ρ c main_arg9 (by decide)]
  show StableHlo.after hostOps1 (W2 m ρ c) (Proc.devRef .tc main_v29) = _
  after_results <;> try rfl
theorem W3_v30 (c : Dev nD) : W3 m ρ c (Proc.devRef .tc main_v30) = Mlp.asRow (arg m c main_arg10) := by
  rw [← reshape_row, ← W1_arg m ρ c main_arg10 (by simp), ← W2_of_ne m ρ c main_arg10 (by decide)]
  show StableHlo.after hostOps1 (W2 m ρ c) (Proc.devRef .tc main_v30) = _
  after_results <;> try rfl
theorem W3_v31 (c : Dev nD) : W3 m ρ c (Proc.devRef .tc main_v31) = Mlp.asRow (arg m c main_arg12) := by
  rw [← reshape_row, ← W1_arg m ρ c main_arg12 (by simp), ← W2_of_ne m ρ c main_arg12 (by decide)]
  show StableHlo.after hostOps1 (W2 m ρ c) (Proc.devRef .tc main_v31) = _
  after_results <;> try rfl
end Stretch1

/-- AFTER THE NODE REGION the result buffer holds `whole` of the arguments. -/
theorem value (c : Dev nD) : W4 m ρ c (Proc.devRef .tc main_v32)
    = whole (arg m c main_arg0) (arg m c main_arg1) (arg m c main_arg2) (arg m c main_arg5) (arg m c main_arg6) (arg m c main_arg7)
        (arg m c main_arg8) (arg m c main_arg9) (arg m c main_arg10) (arg m c main_arg11) (arg m c main_arg12) := by
  refine (W4_arr m ρ c 7).trans ((NodeRegion.final (V3 m ρ) c).trans ?_)
  show Mlp.rows (W3 m ρ c (Proc.devRef .tc main_arg0)) (W3 m ρ c (Proc.devRef .tc main_v27)) (W3 m ρ c (Proc.devRef .tc main_v28))
    (W3 m ρ c (Proc.devRef .tc main_v29)) (W3 m ρ c (Proc.devRef .tc main_v30)) (W3 m ρ c (Proc.devRef .tc main_arg11))
    (W3 m ρ c (Proc.devRef .tc main_v31)) = _
  rw [W3_v27, W3_v28, W3_v29, W3_v30, W3_v31, W3_arg m ρ c main_arg0 (by simp), W3_arg m ρ c main_arg11 (by simp)]
  rfl

end Cert.KernelIdeal.HostValue

end
-- ==== Proof.RefSide.lean ====
/-
  The reference, stage by stage, as the perceptron applied row by row.

  The reference concatenates each row's two feature vectors into one of 128 columns and multiplies by the whole 128 × 64
  weight matrix; read at an index (the generated stage lemmas) that product is a sum over 128 columns, which splits into
  the sum over the first 64 — the first feature vector against the upper half of the weights — plus the sum over the last
  64 — the second against the lower half (`Mlp.sum_halves`). With the bias rows and the clamp at zero read at an index
  the edge stage and the final stage are each `Mlp.rows` of the stages that feed them.
-/
import proofs.«120374_j24773371363899_1_alg».proof.Proof.Gen.ReferenceIdeal.Run
import proofs.«120374_j24773371363899_1_alg».proof.Proof.Gen.ReferenceIdeal.Read
import proofs.«120374_j24773371363899_1_alg».proof.Proof.Mlp
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## A two-piece concatenation along the columns, read at a left and at a right column -/

theorem catE_left (A B : S800000x64.Idx → EReal) (r : Fin 800000) (k : Fin 64) :
    concatenate S800000x128 1 [⟨S800000x64, A⟩, ⟨S800000x64, B⟩] concatenates_S800000x64_S800000x64_S800000x128_d1
      (ix2 r (Fin.castAdd 64 k)) = A (ix2 r k) :=
  concatenate_pair_apply_left 1 A B _ (ix2 r (Fin.castAdd 64 k)) rfl (ix2 r k) (fun b => by
    match b with
    | ⟨0, _⟩ => rfl
    | ⟨1, _⟩ => rfl)

theorem catE_right (A B : S800000x64.Idx → EReal) (r : Fin 800000) (k : Fin 64) :
    concatenate S800000x128 1 [⟨S800000x64, A⟩, ⟨S800000x64, B⟩] concatenates_S800000x64_S800000x64_S800000x128_d1
      (ix2 r (Fin.natAdd 64 k)) = B (ix2 r k) :=
  concatenate_pair_apply_right 1 A B _ (ix2 r (Fin.natAdd 64 k)) rfl rfl (ix2 r k) (fun b hb => by
    match b with
    | ⟨0, _⟩ => rfl
    | ⟨1, _⟩ => exact absurd rfl hb) (by show k.val + 64 = 64 + k.val; omega)

theorem catN_left (A B : S50000x64.Idx → EReal) (r : Fin 50000) (k : Fin 64) :
    concatenate S50000x128 1 [⟨S50000x64, A⟩, ⟨S50000x64, B⟩] concatenates_S50000x64_S50000x64_S50000x128_d1
      (ix2 r (Fin.castAdd 64 k)) = A (ix2 r k) :=
  concatenate_pair_apply_left 1 A B _ (ix2 r (Fin.castAdd 64 k)) rfl (ix2 r k) (fun b => by
    match b with
    | ⟨0, _⟩ => rfl
    | ⟨1, _⟩ => rfl)

theorem catN_right (A B : S50000x64.Idx → EReal) (r : Fin 50000) (k : Fin 64) :
    concatenate S50000x128 1 [⟨S50000x64, A⟩, ⟨S50000x64, B⟩] concatenates_S50000x64_S50000x64_S50000x128_d1
      (ix2 r (Fin.natAdd 64 k)) = B (ix2 r k) :=
  concatenate_pair_apply_right 1 A B _ (ix2 r (Fin.natAdd 64 k)) rfl rfl (ix2 r k) (fun b hb => by
    match b with
    | ⟨0, _⟩ => rfl
    | ⟨1, _⟩ => exact absurd rfl hb) (by show k.val + 64 = 64 + k.val; omega)

/-! ## The edge stage -/

section Edge
variable (x0 : (⟨S50000x64, .f32⟩ : BufTy).Contents (Elt Ideal)) (x1 : (⟨S2x800000, .i32⟩ : BufTy).Contents (Elt Ideal)) (x2 : (⟨S800000x64, .f32⟩ : BufTy).Contents (Elt Ideal))
  (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))

/-- The first layer's affine map at `(r, k)`, before the clamp: the concatenated row against the whole weight matrix is the
    first feature vector against the upper half plus the second against the lower half. -/
theorem edge_affine (r : Fin 800000) (k : Fin 64) :
    val_main_v15 (F := Ideal) x0 x1 x2 x5 x6 (ix2 r k)
      = (∑ i : Fin 64, val_main_v10 (F := Ideal) x0 x1 (ix2 r i) * Mlp.upper x5 (ix2 i k))
        + (∑ i : Fin 64, x2 (ix2 r i) * Mlp.lower x5 (ix2 i k)) + Mlp.asRow x6 (ix2 0 k) := by
  rw [val_main_v15_apply, val_main_v12_apply, val_main_v14_apply, val_main_v13_apply, Mlp.sum_halves]
  have el : ∀ c : Fin 128, lidx_main_v12 (ix2 r k) c = ix2 r c := fun c => funext fun a => Fin.ext (by
    match a with
    | ⟨0, _⟩ => rfl
    | ⟨1, _⟩ => rfl)
  have er : ∀ c : Fin 128, ridx_main_v12 (ix2 r k) c = ix2 c k := fun c => funext fun a => Fin.ext (by
    match a with
    | ⟨0, _⟩ => rfl
    | ⟨1, _⟩ => rfl)
  have eb : idx_main_v13 (idx_main_v14 (ix2 r k)) = ix1 k := funext fun a => Fin.ext (by
    match a with
    | ⟨0, _⟩ => rfl)
  simp only [el, er, eb]
  unfold val_main_v11
  simp only [catE_left, catE_right]
  rfl

/-- THE EDGE STAGE: the reference's per-edge result is the perceptron applied to each row of the gathered node features
    beside the edge features. -/
theorem edge_stage :
    val_main_v20 (F := Ideal) x0 x1 x2 x5 x6 x7 x8
      = Mlp.rows (val_main_v10 (F := Ideal) x0 x1) x2 (Mlp.upper x5) (Mlp.lower x5) (Mlp.asRow x6) x7 (Mlp.asRow x8) := by
  funext i
  obtain ⟨r, j, rfl⟩ : ∃ (r : Fin 800000) (j : Fin 64), i = ix2 r j := ⟨i 0, i 1, eq_ix2 i⟩
  rw [val_main_v20_apply, val_main_v17_apply, val_main_v19_apply, val_main_v18_apply]
  have el : ∀ c : Fin 64, lidx_main_v17 (ix2 r j) c = ix2 r c := fun c => funext fun a => Fin.ext (by
    match a with
    | ⟨0, _⟩ => rfl
    | ⟨1, _⟩ => rfl)
  have er : ∀ c : Fin 64, ridx_main_v17 (ix2 r j) c = ix2 c j := fun c => funext fun a => Fin.ext (by
    match a with
    | ⟨0, _⟩ => rfl
    | ⟨1, _⟩ => rfl)
  have eb : idx_main_v18 (idx_main_v19 (ix2 r j)) = ix1 j := funext fun a => Fin.ext (by
    match a with
    | ⟨0, _⟩ => rfl)
  simp only [el, er, eb, val_main_v16_apply, val_main_call0_v0_apply, val_main_call0_cst_apply, edge_affine]
  rfl

end Edge

/-! ## The final stage -/

section Node
variable (x0 : (⟨S50000x64, .f32⟩ : BufTy).Contents (Elt Ideal)) (x1 : (⟨S2x800000, .i32⟩ : BufTy).Contents (Elt Ideal)) (x2 : (⟨S800000x64, .f32⟩ : BufTy).Contents (Elt Ideal))
  (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
  (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))

/-- The node layer's affine map at `(r, k)`, before the clamp: the node's features against the upper half of the weights
    plus its aggregated messages against the lower half. -/
theorem node_affine (r : Fin 50000) (k : Fin 64) :
    val_main_v37 (F := Ideal) x0 x1 x2 x5 x6 x7 x8 x9 x10 (ix2 r k)
      = (∑ i : Fin 64, x0 (ix2 r i) * Mlp.upper x9 (ix2 i k))
        + (∑ i : Fin 64, val_main_v32 (F := Ideal) x0 x1 x2 x5 x6 x7 x8 (ix2 r i) * Mlp.lower x9 (ix2 i k)) + Mlp.asRow x10 (ix2 0 k) := by
  rw [val_main_v37_apply, val_main_v34_apply, val_main_v36_apply, val_main_v35_apply, Mlp.sum_halves]
  have el : ∀ c : Fin 128, lidx_main_v34 (ix2 r k) c = ix2 r c := fun c => funext fun a => Fin.ext (by
    match a with
    | ⟨0, _⟩ => rfl
    | ⟨1, _⟩ => rfl)
  have er : ∀ c : Fin 128, ridx_main_v34 (ix2 r k) c = ix2 c k := fun c => funext fun a => Fin.ext (by
    match a with
    | ⟨0, _⟩ => rfl
    | ⟨1, _⟩ => rfl)
  have eb : idx_main_v35 (idx_main_v36 (ix2 r k)) = ix1 k := funext fun a => Fin.ext (by
    match a with
    | ⟨0, _⟩ => rfl)
  simp only [el, er, eb]
  unfold val_main_v33
  simp only [catN_left, catN_right]
  rfl

/-- THE FINAL STAGE: the reference's result is the perceptron applied to each node's features beside its aggregated messages. -/
theorem node_stage :
    val_main_v42 (F := Ideal) x0 x1 x2 x5 x6 x7 x8 x9 x10 x11 x12
      = Mlp.rows x0 (val_main_v32 (F := Ideal) x0 x1 x2 x5 x6 x7 x8) (Mlp.upper x9) (Mlp.lower x9) (Mlp.asRow x10) x11 (Mlp.asRow x12) := by
  funext i
  obtain ⟨r, j, rfl⟩ : ∃ (r : Fin 50000) (j : Fin 64), i = ix2 r j := ⟨i 0, i 1, eq_ix2 i⟩
  rw [val_main_v42_apply, val_main_v39_apply, val_main_v41_apply, val_main_v40_apply]
  have el : ∀ c : Fin 64, lidx_main_v39 (ix2 r j) c = ix2 r c := fun c => funext fun a => Fin.ext (by
    match a with
    | ⟨0, _⟩ => rfl
    | ⟨1, _⟩ => rfl)
  have er : ∀ c : Fin 64, ridx_main_v39 (ix2 r j) c = ix2 c j := fun c => funext fun a => Fin.ext (by
    match a with
    | ⟨0, _⟩ => rfl
    | ⟨1, _⟩ => rfl)
  have eb : idx_main_v40 (idx_main_v41 (ix2 r j)) = ix1 j := funext fun a => Fin.ext (by
    match a with
    | ⟨0, _⟩ => rfl)
  simp only [el, er, eb, val_main_v38_apply, val_main_call1_v0_apply, val_main_call1_cst_apply, node_affine]
  rfl

end Node

end Cert.ReferenceIdeal.RefValue

end
-- ==== Proof.lean ====
/-
  A message-passing layer: the kernel program against its reference, over the extended reals.

  Both programs gather every edge's source-node features, apply a two-layer perceptron to each edge's row (source features
  beside edge features), average the results over each destination node's incoming edges (a scatter-added sum divided by
  the in-degree clamped below at one), and apply a second perceptron to each node's row (its features beside the average).
  The kernel program runs each perceptron as a region over row blocks, with the first layer's 128 × 64 weight matrix cut
  into its upper and lower halves and the two half products added; the reference concatenates the two feature vectors and
  multiplies by the whole matrix. A sum over the 128 concatenated columns is the sum over the first 64 plus the sum over the
  last 64, in any commutative monoid — so the two agree at every extended real, and the precondition is never opened.

  The kernel side: each region's result array is the perceptron applied row by row to the arrays the region is entered
  with (its 50, resp. 10, row blocks tile the array), and the buffer contents at the boundaries read back through the host
  operations to the arguments: the result buffer is `HostValue.whole` of the thirteen arguments. The reference side: its
  result stage, read at an index through its stages, is the same `whole`. The gather, the scatter-adds and the division
  are one chain of host operations on both sides and are carried unopened.
-/
import proofs.«120374_j24773371363899_1_alg».proof.Defs
import proofs.«120374_j24773371363899_1_alg».proof.Proof.Gen.Kernel
import proofs.«120374_j24773371363899_1_alg».proof.Proof.Gen.Kernel.Skeleton
import proofs.«120374_j24773371363899_1_alg».proof.Proof.Gen.Kernel.Launch
import proofs.«120374_j24773371363899_1_alg».proof.Proof.Gen.Kernel.Points
import proofs.«120374_j24773371363899_1_alg».proof.Proof.Gen.Kernel.Frame
import proofs.«120374_j24773371363899_1_alg».proof.Proof.Gen.KernelIdeal
import proofs.«120374_j24773371363899_1_alg».proof.Proof.Gen.KernelIdeal.Skeleton
import proofs.«120374_j24773371363899_1_alg».proof.Proof.Gen.KernelIdeal.Launch
import proofs.«120374_j24773371363899_1_alg».proof.Proof.Gen.KernelIdeal.Points
import proofs.«120374_j24773371363899_1_alg».proof.Proof.Gen.KernelIdeal.Frame
import proofs.«120374_j24773371363899_1_alg».proof.Proof.Gen.ReferenceIdeal
import proofs.«120374_j24773371363899_1_alg».proof.Proof.Gen.ReferenceIdeal.Run
import proofs.«120374_j24773371363899_1_alg».proof.Proof.Gen.ReferenceIdeal.Read
import proofs.«120374_j24773371363899_1_alg».proof.Proof.Gen.Pre_finite_inputs
import proofs.«120374_j24773371363899_1_alg».proof.Proof.KernelRun
import proofs.«120374_j24773371363899_1_alg».proof.Proof.KernelValue
import proofs.«120374_j24773371363899_1_alg».proof.Proof.RefSide
import Idealize.ShloMosaic.Adequacy
import Idealize.ShloMosaic.Init

noncomputable section

namespace Cert.Proof

open Idealize.ShloMosaic Idealize.SL.Sem

/-! ## The host chain shared by the two programs -/

section Shared
variable {F : FTy → Type} [FloatOps F]

/-- The reference's gather stage is the kernel program's gather of the same arrays. -/
theorem ref_gathered (x0 : (⟨Cert.ReferenceIdeal.S50000x64, .f32⟩ : BufTy).Contents (Elt F)) (x1 : (⟨Cert.ReferenceIdeal.S2x800000, .i32⟩ : BufTy).Contents (Elt F)) :
    Cert.ReferenceIdeal.Read.val_main_v10 (F := F) x0 x1 = Cert.KernelIdeal.HostValue.gathered (F := F) x0 x1 := rfl

/-- The reference's mean-over-incoming-edges stage is the kernel program's `aggregate` of the reference's edge stage. -/
theorem ref_aggregate (x0 : (⟨Cert.ReferenceIdeal.S50000x64, .f32⟩ : BufTy).Contents (Elt F)) (x1 : (⟨Cert.ReferenceIdeal.S2x800000, .i32⟩ : BufTy).Contents (Elt F)) (x2 : (⟨Cert.ReferenceIdeal.S800000x64, .f32⟩ : BufTy).Contents (Elt F))
    (x5 : (⟨Cert.ReferenceIdeal.S128x64, .f32⟩ : BufTy).Contents (Elt F)) (x6 : (⟨Cert.ReferenceIdeal.S64, .f32⟩ : BufTy).Contents (Elt F)) (x7 : (⟨Cert.ReferenceIdeal.S64x64, .f32⟩ : BufTy).Contents (Elt F)) (x8 : (⟨Cert.ReferenceIdeal.S64, .f32⟩ : BufTy).Contents (Elt F)) :
    Cert.ReferenceIdeal.Read.val_main_v32 (F := F) x0 x1 x2 x5 x6 x7 x8
      = Cert.KernelIdeal.HostValue.aggregate (F := F) x1 (Cert.ReferenceIdeal.Read.val_main_v20 (F := F) x0 x1 x2 x5 x6 x7 x8) := rfl

end Shared

/-- THE REFERENCE'S RESULT, as a function of its arguments, is the kernel program's. -/
theorem ref_whole (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal))
    (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal))
    (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64, .f32⟩ : BufTy).Contents (Elt Ideal)) :
    Cert.ReferenceIdeal.Read.val_main_v42 (F := Ideal) x0 x1 x2 x5 x6 x7 x8 x9 x10 x11 x12
      = Cert.KernelIdeal.HostValue.whole x0 x1 x2 x5 x6 x7 x8 x9 x10 x11 x12 := by
  rw [Cert.ReferenceIdeal.RefValue.node_stage, ref_aggregate, Cert.ReferenceIdeal.RefValue.edge_stage, ref_gathered]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at `whole` of the (agreeing) arguments. -/
theorem algebraic : Cert.algebraic_KernelIdeal_ReferenceIdeal := by
  intro m ρ m' ρ' _ hagree
  refine ⟨fun c => Cert.KernelIdeal.HostValue.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HostValue.value m ρ c), (h c).2⟩)
      (Cert.KernelIdeal.GenRun.run_named (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v42_eq, ref_whole, e0, e1, e2, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
